-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  main_v3
-- ==== Pre_finite_inputs_ReferenceIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S256x512 : Shape := ⟨2, ![256, 512]⟩
abbrev S512x256 : Shape := ⟨2, ![512, 256]⟩
abbrev S_ : Shape := ⟨0, ![]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .local _ .vmem, ⟨0, _⟩ => ⟨S256x512, .f32⟩
  | .local _ .vmem, ⟨1, _⟩ => ⟨S512x256, .f32⟩
  | _, _ => ⟨S256x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let c0 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v17 : BitVec 32 := Scalar.muli v8 c256_i32
  let v18 : Index := Scalar.indexCast v17
  ![0, v18.toNat]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_8 : BitVec 32 := 256#32
  let v21 : BitVec 32 := Scalar.muli v8 c256_i32_8
  let v22 : Index := Scalar.indexCast v21
  let c0_9 : Index := 0#32
  ![v22.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_12 : BitVec 32 := 256#32
  let v25 : BitVec 32 := Scalar.muli v8 c256_i32_12
  let c0_i32_17 : BitVec 32 := 0#32
  ![v25.toNat, 0]
def k0_off4 (d0 : Dev nD) : Fin 2 → Nat :=
  let c0_i32_18 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c256_i32_11 : BitVec 32 := 256#32
  let v24 : BitVec 32 := Scalar.muli v9 c256_i32_11
  ![0, v24.toNat]
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v26 : BitVec 32 := Scalar.muli v2 c4_i32_13
  let v27 : BitVec 32 := Scalar.addi c0_i32_14 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v28 : BitVec 32 := Scalar.muli v5 c2_i32_15
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_16 : BitVec 32 := 1#32
  let v30 : BitVec 32 := Scalar.muli v9 c1_i32_16
  let v31 : BitVec 32 := Scalar.addi v29 v30
  v31.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S256x256 : 0 < S256x256.numel
  shapeCasts_S256x256_S256x256 : S256x256.ShapeCasts S256x256
  hcc0_scratch0 : 2 + S_.numel ≤ 4
  hcc0_scratch1 : 3 + S_.numel ≤ 4
  k0_dev1_lt : ∀ d0 : Dev nD, (k0_dev1 d0) < nD
  k0_off1_inb : ∀ d0 : Dev nD, ∀ a, (k0_off1 d0) a + S256x256.size a ≤ S256x512.size a
  k0_off2_inb : ∀ d0 : Dev nD, ∀ a, (k0_off2 d0) a + S256x256.size a ≤ S512x256.size a
  k0_off3_inb : ∀ d0 : Dev nD, ∀ a, (k0_off3 d0) a + S256x256.size a ≤ S512x256.size a
  k0_off4_inb : ∀ d0 : Dev nD, ∀ a, (k0_off4 d0) a + S256x256.size a ≤ S256x512.size a
  k0_dev2_lt : ∀ d0 : Dev nD, (k0_dev2 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S_ := SemArray.consecutive 3 S_ hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelProto.lean ====
/-
  The cross-device protocol of the pairwise exchange, and the data every thread's proof is stated over.

  The eight devices form four pairs: a device and its PEER differ in the last mesh coordinate only. A device
  holds a 256 × 512 block of rows; it keeps the square of columns its own coordinate names in the rows of its
  result that coordinate names, and sends the other square of columns into the peer's result, into the rows its
  OWN coordinate names. Three semaphores a device: the entry handshake (one unit from the peer, saying the
  peer is inside the kernel and handing over the half of the peer's result buffer the transfer will fill), the
  send side of the transfer (the source square comes back), the receive side (the landed half of the result).
-/
import proofs.«900629_g7700000000000630_dist_a2a_v7x_xyz2x2x2_z_m256_n256_f32_1_alg».proof.Proof.Gen.Kernel
import proofs.«900629_g7700000000000630_dist_a2a_v7x_xyz2x2x2_z_m256_n256_f32_1_alg».proof.Proof.Gen.Kernel.Skeleton
import proofs.«900629_g7700000000000630_dist_a2a_v7x_xyz2x2x2_z_m256_n256_f32_1_alg».proof.Proof.Gen.Kernel.Launch
import proofs.«900629_g7700000000000630_dist_a2a_v7x_xyz2x2x2_z_m256_n256_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The pairs -/

/-- The device with the last mesh coordinate flipped. -/
def peer (c : Dev nD) : Dev nD :=
  ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide
theorem peer_par (c : Dev nD) : (peer c).val % 2 = 1 - c.val % 2 := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs and cells -/

abbrev xM : Memref sig .tc .vmem S256x512 .f32 := Memref.whole cc0_stg0_0
abbrev oM : Memref sig .tc .vmem S512x256 .f32 := Memref.whole cc0_stg1_0

/-- The rows of the result a device fills itself, -/
abbrev ownR (c : Dev nD) : Rect S512x256 := Rect.unit (s := S512x256) (k0_off2 c) S256x256.size (k0_off2_inb c)
/-- the columns of its block it keeps, -/
abbrev keepR (c : Dev nD) : Rect S256x512 := Rect.unit (s := S256x512) (k0_off1 c) S256x256.size (k0_off1_inb c)
/-- the rows of the PEER's result device `c`'s transfer fills (the same rows of its own buffer, read on the peer), -/
abbrev dstM (c : Dev nD) : Memref sig .tc .vmem S256x256 .f32 :=
  oM.slice (Rect.unit (s := S512x256) (k0_off3 c) S256x256.size (k0_off3_inb c)) (fun _ => rfl)
/-- and the columns of its block it sends. -/
abbrev srcM (c : Dev nD) : Memref sig .tc .vmem S256x256 .f32 :=
  xM.slice (Rect.unit (s := S256x512) (k0_off4 c) S256x256.size (k0_off4_inb c)) (fun _ => rfl)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the exchange's: handshake, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The transfer's credit: that of a 256 × 256 square of the result buffer. -/
def N : ℕ := (dstM (0 : Dev nD)).view.dmaCredit
theorem N_eq (c : Dev nD) : (dstM c).view.dmaCredit = N := rfl
theorem N_pos : 0 < N := View.dmaCredit_pos _ (by decide)

/-! ## Contents -/

/-- Device `c`'s block of rows, as its input staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The square of columns device `c` keeps (what its one store writes), -/
def kept (c : Dev nD) : S256x256.Idx → Elt F .f32 :=
  k0_pay1 ((xM : Memref sig .tc .vmem S256x512 .f32).view.readAt (Elt F) (keepR c).toLoadRect (xstg m ρ c))
/-- and the square it sends (what its transfer reads). -/
def sent (c : Dev nD) : S256x256.Idx → Elt F .f32 :=
  (srcM c).view.read (Elt F) (xstg m ρ c)

/-- The result buffer of device `c` at the end: its own square in the rows it fills itself, the peer's sent
    square in the other rows (the two halves cover the buffer, so the base contents are never seen). -/
def outAt (c : Dev nD) : (cc0_stg1_0 : Ref sig .tc).ty.Contents (Elt F) :=
  (dstM (peer c)).view.write (Elt F)
    (((oM : Memref sig .tc .vmem S512x256 .f32).access (ownR c)).write (Elt F) (fun _ => Classical.arbitrary _) (kept m ρ c) Finset.univ)
    (sent m ρ (peer c)) Finset.univ

/-- The two halves of a result buffer. -/
abbrev ownSet (c : Dev nD) : Finset (cc0_stg1_0 : Ref sig .tc).ty.Idx := ((oM : Memref sig .tc .vmem S512x256 .f32).access (ownR c)).set
abbrev dstSet (c : Dev nD) : Finset (cc0_stg1_0 : Ref sig .tc).ty.Idx := (dstM c).view.set
abbrev srcSet (c : Dev nD) : Finset (cc0_stg0_0 : Ref sig .tc).ty.Idx := (srcM c).view.set

theorem mem_ownSet (c : Dev nD) (i : (cc0_stg1_0 : Ref sig .tc).ty.Idx) :
    i ∈ ownSet c ↔ (256 * (c.val % 2) ≤ (i 0).val ∧ (i 0).val < 256 * (c.val % 2) + 256) := by
  unfold ownSet
  rw [show ((oM : Memref sig .tc .vmem S512x256 .f32).access (ownR c)).set = (ownR c).set from View.set_slice_whole _ _, Rect.mem_set_unit, k0_off2_eq]
  have h1 : (i 1).val < 256 := (i 1).isLt
  constructor
  · intro h; exact h 0
  · intro h a; fin_cases a
    · exact h
    · exact ⟨Nat.zero_le _, by show (i 1).val < 0 + 256; omega⟩

theorem mem_dstSet (c : Dev nD) (i : (cc0_stg1_0 : Ref sig .tc).ty.Idx) :
    i ∈ dstSet c ↔ (256 * (c.val % 2) ≤ (i 0).val ∧ (i 0).val < 256 * (c.val % 2) + 256) := by
  unfold dstSet
  rw [show (dstM c).view.set = (Rect.unit (s := S512x256) (k0_off3 c) S256x256.size (k0_off3_inb c)).set from View.set_slice_whole _ _, Rect.mem_set_unit, k0_off3_eq]
  have h1 : (i 1).val < 256 := (i 1).isLt
  constructor
  · intro h; exact h 0
  · intro h a; fin_cases a
    · exact h
    · exact ⟨Nat.zero_le _, by show (i 1).val < 0 + 256; omega⟩

/-- The rows a device does not fill itself are the rows its peer's transfer fills. -/
theorem halves (c : Dev nD) : Finset.univ \ ownSet c = dstSet (peer c) := by
  ext i
  rw [Finset.mem_sdiff, mem_ownSet, mem_dstSet, peer_par]
  have h0 : (i 0).val < 512 := (i 0).isLt
  have hc : c.val % 2 < 2 := Nat.mod_lt _ (by decide)
  constructor
  · rintro ⟨-, h⟩; omega
  · intro h; exact ⟨Finset.mem_univ _, by omega⟩

theorem ownSet_disj (c : Dev nD) : ∀ i ∈ ownSet c, i ∉ dstSet (peer c) := fun i hi h => by
  rw [← halves] at h; exact (Finset.mem_sdiff.mp h).2 hi

/-- On the rows it fills itself a device's result is what its store wrote, whatever was there; -/
theorem outAt_own (c : Dev nD) (f : (cc0_stg1_0 : Ref sig .tc).ty.Contents (Elt F)) :
    ∀ i ∈ ownSet c, ((oM : Memref sig .tc .vmem S512x256 .f32).access (ownR c)).write (Elt F) f (kept m ρ c) Finset.univ i = outAt m ρ c i := by
  intro i hi
  have hn : i ∉ (dstM (peer c)).view.setOn Finset.univ := by rw [View.setOn_univ]; exact ownSet_disj c i hi
  obtain ⟨y, hy⟩ := View.exists_emb_of_mem_set ((oM : Memref sig .tc .vmem S512x256 .f32).access (ownR c)) hi
  subst hy
  unfold outAt
  rw [View.write_of_not_mem _ _ _ hn, View.write_emb_of_mem _ _ (Finset.mem_univ y), View.write_emb_of_mem _ _ (Finset.mem_univ y)]

/-- on the rows device `p`'s transfer fills, the PEER's result is what the transfer wrote, whatever was there. -/
theorem outAt_dst (p : Dev nD) (fd : (cc0_stg1_0 : Ref sig .tc).ty.Contents (Elt F)) :
    ∀ i ∈ dstSet p, (dstM p).view.write (Elt F) fd (sent m ρ p) Finset.univ i = outAt m ρ (peer p) i := by
  intro i hi
  obtain ⟨y, hy⟩ := View.exists_emb_of_mem_set (dstM p).view hi
  subst hy
  unfold outAt
  rw [peer_peer, View.write_emb_of_mem _ _ (Finset.mem_univ y), View.write_emb_of_mem _ _ (Finset.mem_univ y)]

/-! ## Points-to assertions -/

/-- The rows of device `p`'s result buffer that device `s`'s transfer fills, held whole at contents `f`. -/
def dstPts (s p : Dev nD) (f : Buf (Elt F) ((dstM s).view.loc (p : Thread nD τ))) : sProp 𝕄 :=
  (dstM s).view.loc (p : Thread nD τ) ↦[(dstM s).view.set]{fullShare} f
/-- The square of its block device `c` sends. -/
def srcPts (c : Dev nD) : sProp 𝕄 :=
  (srcM c).view.loc (c : Thread nD τ) ↦[(srcM c).view.set]{fullShare} xstg m ρ c

instance dstPts_storable (s p : Dev nD) (f) : BI.Storable (upEmb : UEmb _ 𝕄) (dstPts (F := F) s p f) := by unfold dstPts; infer_instance
instance srcPts_storable (c : Dev nD) : BI.Storable (upEmb : UEmb _ 𝕄) (srcPts (F := F) m ρ c) := by unfold srcPts; infer_instance

/-! ## The schedule -/

/-- What the peer's signal hands device `c`: the rows of the peer's result buffer that `c`'s transfer fills, and
    that the peer has reached round 0 of its receive cell. -/
def barPay (c : Dev nD) : sProp 𝕄 := iprop((∃ f, dstPts c (peer c) f) ∗ reached ER (recvCell (peer c)) 0)
/-- What the landing hands device `c`: the rows the peer's transfer filled, at the final contents. -/
def recvPay (c : Dev nD) : sProp 𝕄 := dstPts (peer c) c (outAt m ρ c)
/-- What the departure hands back: the sent square. -/
def sendPay (c : Dev nD) : sProp 𝕄 := srcPts m ρ c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: the handshake cell one unit from the peer, the send and receive cells the
    square's credit. -/
def exRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (exRd (F := F) m ρ).duties (barCell c) 0 = {()} := by dsimp only [exRd]; exact if_pos ⟨rfl, .inl ⟨rfl, rfl⟩⟩
theorem duties_send : (exRd (F := F) m ρ).duties (sendCell c) 0 = {()} := by dsimp only [exRd]; exact if_pos ⟨rfl, .inr ⟨rfl, .inl rfl⟩⟩
theorem duties_recv : (exRd (F := F) m ρ).duties (recvCell c) 0 = {()} := by dsimp only [exRd]; exact if_pos ⟨rfl, .inr ⟨rfl, .inr rfl⟩⟩
theorem duties_later (g : GSem nD τ sig) : ∀ r, 1 ≤ r → (exRd (F := F) m ρ).duties g r = ∅ :=
  fun r hr => by dsimp only [exRd]; rw [if_neg fun h => by omega]

theorem amount_bar (d : Unit) : (exRd (F := F) m ρ).amount (barCell c) 0 d = 1 := by dsimp only [exRd]; exact if_pos rfl
theorem amount_send (d : Unit) : (exRd (F := F) m ρ).amount (sendCell c) 0 d = N := by dsimp only [exRd]; exact if_neg send_ne_bar
theorem amount_recv (d : Unit) : (exRd (F := F) m ρ).amount (recvCell c) 0 d = N := by dsimp only [exRd]; exact if_neg recv_ne_bar

theorem expect_bar : (exRd (F := F) m ρ).expect (barCell c) 0 = 1 := by
  unfold Schedule.expect Schedule.amountOf; rw [duties_bar, Finset.sum_singleton, amount_bar]
theorem expect_send : (exRd (F := F) m ρ).expect (sendCell c) 0 = N := by
  unfold Schedule.expect Schedule.amountOf; rw [duties_send, Finset.sum_singleton, amount_send]
theorem expect_recv : (exRd (F := F) m ρ).expect (recvCell c) 0 = N := by
  unfold Schedule.expect Schedule.amountOf; rw [duties_recv, Finset.sum_singleton, amount_recv]

theorem payload_bar (d : Unit) : (exRd (F := F) m ρ).payload (barCell c) 0 d = barPay c := by dsimp only [exRd]; rw [if_pos rfl]
theorem payload_send (d : Unit) : (exRd (F := F) m ρ).payload (sendCell c) 0 d = sendPay m ρ c := by
  dsimp only [exRd]; rw [if_neg send_ne_bar, if_neg send_ne_recv, if_pos rfl]
theorem payload_recv (d : Unit) : (exRd (F := F) m ρ).payload (recvCell c) 0 d = recvPay m ρ c := by
  dsimp only [exRd]; rw [if_neg recv_ne_bar, if_pos rfl]

theorem rest_bar : bigSep ((exRd (F := F) m ρ).duties (barCell c) 0 \ ∅) (fun d => (exRd (F := F) m ρ).payload (barCell c) 0 d) = barPay c := by
  rw [Finset.sdiff_empty, duties_bar, bigSep_singleton, payload_bar]
theorem rest_send : bigSep ((exRd (F := F) m ρ).duties (sendCell c) 0 \ ∅) (fun d => (exRd (F := F) m ρ).payload (sendCell c) 0 d) = sendPay m ρ c := by
  rw [Finset.sdiff_empty, duties_send, bigSep_singleton, payload_send]
theorem rest_recv : bigSep ((exRd (F := F) m ρ).duties (recvCell c) 0 \ ∅) (fun d => (exRd (F := F) m ρ).payload (recvCell c) 0 d) = recvPay m ρ c := by
  rw [Finset.sdiff_empty, duties_recv, bigSep_singleton, payload_recv]

end Sched

/-! ## What each device owes at launch; the levels -/

/-- Device `c` owes the peer's receive cell the square's credit and the peer's handshake cell one unit (the signal
    comes first, so its summand is last). -/
def O₀ (c : Dev nD) : CellTallies nD τ sig Unit := tallyAt (recvCell (peer c)) () N + tallyAt (barCell (peer c)) () 1

def L (g : GSem nD τ sig) : Finset Unit := if g.1.2 = .tc then {()} else ∅
/-- Handshake cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its handshake wait a device owes the peer's receive credit only: a receive cell, above its handshake cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

/-- The cells' invariants device `c`'s thread opens, under the names `K` the launch allocated them at: its own three,
    the peer's handshake cell (its signal) and the peer's receive cell (its transfer). -/
def invs (K : Dev nD × Fin 3 → ℕ) (c : Dev nD) : sProp 𝕄 :=
  iprop(cellInv ER (exRd m ρ) (K (c, 0)) (barCell c) ∗ cellInv ER (exRd m ρ) (K (c, 1)) (sendCell c) ∗ cellInv ER (exRd m ρ) (K (c, 2)) (recvCell c)
    ∗ cellInv ER (exRd m ρ) (K (peer c, 0)) (barCell (peer c)) ∗ cellInv ER (exRd m ρ) (K (peer c, 2)) (recvCell (peer c)))

instance invs_persistent (K : Dev nD × Fin 3 → ℕ) (c : Dev nD) : BI.Persistent (invs m ρ K c) := by unfold invs; infer_instance

/-- The ghost state device `c` starts from: the invariants; its positions at round 0 of its three cells; the
    reached-marks of the cells it pays and of its own send and receive cells; the three duty tokens it pays with —
    the peer's handshake duty, the peer's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its handshake's unit, its
    receive cell's credit) and the level facts. -/
def start (c : Dev nD) : sProp 𝕄 :=
  iprop((∃ K, ghost m ρ K c) ∗ cred (tallyAt (barCell c) () 1) ∗ cred (tallyAt (recvCell c) () N) ∗ levAts L lv)

/-- Before the one grid point (the kernel has no scratch buffer: nothing else); -/
def Φ₀ (c : Dev nD) : sProp 𝕄 := start m ρ c
/-- after it: the two own cells at zero, closed. -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := fetch0_0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands device `c`'s thread at the one grid point, -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and what it must hand back: the own cells closed, nothing owed, the block unchanged, the result buffer at
    its final contents. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- The final arrays of device `c`, as the pipeline's proof data name them. -/
def finalA (c : Dev nD) (w : Fin cfg0.W) : Buf (Elt F) ((cfg0.win w).arr.view.loc (c : Thread nD τ)) := (dats m ρ 0 c).arrAt w cfg0.N

/-- The run's post: every device's arrays at the named contents. -/
def QC : PUnit × MemSt nD τ sig (Elt F) → Prop := fun r =>
  ∀ c : Dev nD, ∀ w : Fin cfg0.W, r.2.mem ((cfg0.win w).arr.view.loc (c : Thread nD τ)) = finalA m ρ c w

end Cert.Kernel.A2A

end
-- ==== Proof.KernelBody.lean ====
/-
  One thread's body, run from the exchange's invariant at a symbolic device.
-/
import proofs.«900629_g7700000000000630_dist_a2a_v7x_xyz2x2x2_z_m256_n256_f32_1_alg».proof.Proof.KernelProto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the buffers along the transfer's squares, and putting them back -/

abbrev locX (c : Dev nD) : Loc nD τ sig := (c : Thread nD τ).loc cc0_stg0_0
abbrev locO (c : Dev nD) : Loc nD τ sig := (c : Thread nD τ).loc cc0_stg1_0

/-- The result buffer, whole, is the rows its device fills and the rows the peer's transfer fills. -/
theorem out_cut (c : Dev nD) (g : Buf (Elt F) (locO c)) :
    (locO c ↦{fullShare} g : sProp 𝕄) ⊣⊢ iprop((locO c ↦[ownSet c]{fullShare} g) ∗ dstPts (peer c) c g) := by
  have h := pointsTo_split_subset (nD := nD) (τ := τ) (sig := sig) (Ix := Unit) (Val := Elt F) (Name := ℕ) (U := UU) (Lvl := ℕ)
    (ℓ := locO c) (q := fullShare) (f := g) (Finset.subset_univ (ownSet c))
  rw [halves c] at h
  exact h

/-- The block's buffer, whole, is the square that is sent and the rest. -/
theorem x_cut (c : Dev nD) :
    (locX c ↦{fullShare} xstg m ρ c : sProp 𝕄) ⊣⊢ iprop(srcPts m ρ c ∗ (locX c ↦[Finset.univ \ srcSet c]{fullShare} xstg m ρ c)) := by
  unfold srcPts
  exact pointsTo_split_subset (Finset.subset_univ (srcSet c))

/-- A load through the rows a device fills itself touches those rows only. -/
theorem own_load_subset (c : Dev nD) : (oM : Memref sig .tc .vmem S512x256 .f32).view.setOn (ownR c).toLoadRect.set ⊆ ownSet c := by
  unfold ownSet
  rw [show ((oM : Memref sig .tc .vmem S512x256 .f32).access (ownR c)).set = (ownR c).set.map (oM : Memref sig .tc .vmem S512x256 .f32).view.emb from View.set_slice _ _]
  exact subset_rfl

/-- What the one store leaves in the rows a device fills itself is the final contents there. -/
theorem own_final (c : Dev nD) (g : Buf (Elt F) (locO c)) :
    (((oM : Memref sig .tc .vmem S512x256 .f32).access (ownR c)).loc (c : Thread nD τ) ↦[ownSet c]{fullShare}
        ((oM : Memref sig .tc .vmem S512x256 .f32).access (ownR c)).write (Elt F) g
          (k0_pay1 ((xM : Memref sig .tc .vmem S256x512 .f32).view.readAt (Elt F) (keepR c).toLoadRect (xstg m ρ c))) Finset.univ : sProp 𝕄)
      ⊢ (locO c ↦[ownSet c]{fullShare} outAt m ρ c) :=
  Entails.of_eq (pointsTo_congr (outAt_own m ρ c g))

/-! ## The transfer's rule at the exchange's cells -/

section Body

variable (K : Dev nD × Fin 3 → ℕ)

/-- The addressed transfer of device `c` into its peer `n` (substituted, not rewritten): the sent square lent, the
    peer's rows handed in at any contents and handed on, through the receive cell, at the final ones. -/
theorem wp_send_ex (c n : Dev nD) (hn : n = peer c) {hsc : (dstM c : Memref sig (Dev.tc n : Thread nD τ).2.kind .vmem S256x256 .f32).view.ref.isScScratch = false}
    {hsrc : (srcM c).view.WordExact} {hdst : (dstM c).view.WordExact}
    {hsem : DmaTarget.Typed .vmem (.dma recvS.sem) (.remote (Dev.tc n : Thread nD τ) (dstM c) (.dma sendS.sem) hsc)}
    {α : Type} {Q : α → sProp 𝕄} {k : PUnit → Prog (TpuEff nD τ sig (Elt F) Λ₀ .tc) α}
    (fn : Buf (Elt F) ((dstM c).view.loc (peer c : Thread nD τ))) (W : Waits sig Unit) :
    iprop(cellInv ER (exRd m ρ) (K (c, 1)) (sendCell c) ∗ cellInv ER (exRd m ρ) (K (peer c, 2)) (recvCell (peer c))
        ∗ srcPts m ρ c ∗ dstPts c (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) (dstM c) (.dma sendS.sem) hsc) (.dma recvS.sem) hsrc hdst hsem) k) Q) := by
  subst hn
  unfold srcPts dstPts
  exact Rounds.wp_send_pointsTo 𝒱₀ ER (exRd m ρ) (c : Thread nD τ) none (κ₁ := K (c, 1)) (κ₂ := K (peer c, 2))
    (r₁ := 0) (r₂ := 0) (d₁ := ()) (d₂ := ()) (fd := fn) (src := srcM c) (dst := dstM c) (q := fullShare) (fs := xstg m ρ c) (c' := (peer c : Thread nD τ))
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay dstPts; rw [peer_peer]; exact Entails.of_eq (pointsTo_congr (outAt_dst m ρ c fn)))

def bodyPre (c : Dev nD) : sProp 𝕄 :=
  iprop((ghost m ρ K c ∗ cred (tallyAt (barCell c) () 1) ∗ cred (tallyAt (recvCell c) () N) ∗ levAts L lv)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxHeartbeats 1600000 in
/-- The body on device `c`, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  simp only [dev1_eq c, dev2_eq c]
  -- the result buffer in its two halves
  ihave Hout2 := ((out_cut c g1).1) $$ Hout
  icases Hout2 with ⟨Hown, Hdst⟩
  -- the SIGNAL to the peer's handshake cell: the rows the peer's transfer will fill go with it
  unfold O₀
  iapply (Rounds.wp_signal 𝒱₀ ER (exRd m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP Hdst]
  · isplitr; · iexact HIbarP
    isplitl [HO]; · iexact HO
    isplitl [HtBP]; · iexact HtBP
    isplitl [Hdst]
    · rw [payload_bar]; unfold barPay; rw [peer_peer]
      isplitl [Hdst]; · iexists g1; iexact Hdst
      iexact HrV
    · iexact HrBP
  iintro HO
  -- the kept square is read, the own rows read and overwritten
  iapply (wp_load 𝒱₀ (c : Thread nD τ) none Set.univ (m := xM) (Finset.subset_univ _)) $$ Hx; iintro Hx
  iapply (wp_load 𝒱₀ (c : Thread nD τ) none Set.univ (m := oM) (S := ownSet c) (own_load_subset c)) $$ Hown; iintro Hown
  iapply (wp_store 𝒱₀ (c : Thread nD τ) none Set.univ (m := oM) (r := ownR c) (Mk := Finset.univ) (S := ownSet c) (by rw [View.setOn_univ])) $$ Hown; iintro Hown
  -- what the store left in the own rows is the final contents there
  ihave Hown := (own_final m ρ c g1) $$ Hown
  -- the WAIT for the peer's unit on the own handshake cell, owing the peer's receive credit: the rows of the peer's
  -- result buffer that this device's transfer fills come with it
  iapply (Rounds.wp_wait_rest_token 𝒱₀ ER (exRd m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HdstP⟩, #HrVP'⟩
  -- the TRANSFER to the peer: the sent square cut out of the block
  ihave Hx2 := ((x_cut m ρ c).1) $$ Hx
  icases Hx2 with ⟨Hsrc, Hxrest⟩
  iapply (wp_send_ex m ρ K c _ (dev2_eq c) fn (insert (SemLoc.reg barS, ()) W)) $$ [Hsrc HdstP HO HtS HtVP]
  · isplitr; · iexact HIsnd
    isplitr; · iexact HIrcvP
    isplitl [Hsrc]; · iexact Hsrc
    isplitl [HdstP]; · iexact HdstP
    isplitl [HO]; · iexact HO
    isplitl [HtS]; · iexact HtS
    isplitr; · iexact HrS
    isplitl [HtVP]; · iexact HtVP
    iexact HrVP
  iintro ⟨HcS, HO⟩
  -- the wait on the SEND cell: the sent square back
  iapply (Rounds.wp_wait_rest_token 𝒱₀ ER (exRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c)) $$ Hpay
  -- the wait on the RECEIVE cell: the rows the peer's transfer filled, at the final contents
  iapply (Rounds.wp_wait_rest_token 𝒱₀ ER (exRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv]; rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq (rest_recv m ρ c)) $$ Hpay
  unfold sendPay recvPay
  -- the two own cells close: their counters at zero are the device's again
  imod (Rounds.cell_close ER (exRd m ρ) (Set.mem_univ (K (c, 1))) (fun h => h) (R := 0 + 1) (duties_later m ρ (sendCell c))) $$ [HatS] with HzS
  · isplitr; · iexact HIsnd
    iexact HatS
  imod (Rounds.cell_close ER (exRd m ρ) (Set.mem_univ (K (c, 2))) (fun h => h) (R := 0 + 1) (duties_later m ρ (recvCell c))) $$ [HatV] with HzV
  · isplitr; · iexact HIrcv
    iexact HatV
  -- the buffers put back together
  ihave Hx := ((x_cut m ρ c).2) $$ [Hsrc Hxrest]
  · isplitl [Hsrc] <;> iassumption
  ihave Hout := ((out_cut c (outAt m ρ c)).2) $$ [Hown Hland]
  · isplitl [Hown] <;> iassumption
  rw [wp_ret]; imodintro
  iapply Hk
  unfold bodyPost Φ₁ Dat.owesAt Pipeline.owesWithin
  rw [show (dats m ρ 0 c).owed t0_0.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`: the one grid point, the windows opened, the names of the cells
    taken out of the starting assertion, then `sound_body`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m ρ c)
  unfold bodyPre' Φ₀ start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      icases Hrest with ⟨H1, H2, H3⟩
      isplitl [H1]; · iexact H1
      isplitl [H2]; · iexact H2
      iexact H3
    isplitl [Ho]; · iexact Ho
    isplitl [Hx] <;> iassumption
  · iintro H; iexact H

end Body

/-- info: 'Cert.Kernel.A2A.body_obligation' depends on axioms: [propext, Classical.choice, Quot.sound] -/
#guard_msgs in #print axioms body_obligation

end Cert.Kernel.A2A

end
-- ==== Proof.KernelLaunch.lean ====
/-
  From one thread's body to the run of @main on the eight devices.

  The exchange's ghost state is minted once for the whole mesh: three cells a device (handshake, send, receive), each
  with one duty at round 0, so three tokens a device. A device pays with its PEER's handshake and receive tokens and
  with its own send token; the peer map being an involution of the devices, dealing the tokens across each pair is a
  reindexing of a product over all devices. The handshake semaphore is the one unscoped semaphore of the launch, so
  its counter at zero arrives beside the kernel's own two at the step made for all devices at once; there every
  cell's invariant is allocated, and each device is handed the five it opens. What a cell is owed at launch is a sum
  over the devices with one nonzero summand, the peer's.
-/
import proofs.«900629_g7700000000000630_dist_a2a_v7x_xyz2x2x2_z_m256_n256_f32_1_alg».proof.Proof.KernelBody

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: three a device. -/
def exCells : Finset (GSem nD τ sig) := Finset.univ.map ⟨kcell, kcell_injective⟩

/-- A cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, positions and reached-marks, and their tokens. -/
def G (c : Dev nD) : sProp 𝕄 :=
  iprop((bigSep Finset.univ fun k : Fin 3 => roundState ER (exRd m ρ) (kcell (c, k)) 0)
    ∗ (bigSep Finset.univ fun k : Fin 3 => iprop(atPos ER (kcell (c, k)) 0 ∅ 0 ∗ reached ER (kcell (c, k)) 0)) ∗ toks c)

/-- What the step for all devices makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the handshake semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device's three counters at zero and its three round states become its three cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and every cell's round 0 reached: persistent, so every device may read them. -/
def records (K : Dev nD × Fin 3 → ℕ) : sProp 𝕄 :=
  iprop((bigSep Finset.univ fun ck : Dev nD × Fin 3 => cellInv ER (exRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (exRd m ρ) (K ck) (kcell ck) : sProp 𝕄)) ⊢ cellInv ER (exRd m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt across each pair: a device's handshake and receive tokens go to its peer, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (exRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The step for all devices at once: own AND unscoped semaphores of every device. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s handshake cell: a unit if it is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

/-- What it owes `c`'s receive cell: the square's credit if it is `c`'s peer. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

/-- A device's launch credit: its handshake's unit and its receive cell's credit, both owed by its peer. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- No scoped buffer beside the staging buffers: the body starts from the launch's state as it is, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

/-- and hands back its own two counters at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled mesh of eight devices, for any float values, from any memory with zero counters: every weakly fair
    execution of @main — the four pairs shaking hands on the runtime's barrier semaphore, then exchanging their
    squares — terminates, and every final state has each device's two arrays at the named contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.A2A.run_main' depends on axioms: [propext, Classical.choice, Quot.sound] -/
#guard_msgs in #print axioms run_main

end Cert.Kernel.A2A

end
-- ==== Proof.KernelFinal.lean ====
/-
  The arrays at the end of the one-point pipeline, as its proof data name them.

  The pipeline has one grid point. The argument array is an input window's: no write-back ever touches it, so it
  ends holding what it held at launch. The result array is an output window's, whose block is the whole array: the
  one grid point writes the staging buffer's final contents back over all of it, so it ends holding exactly those
  contents, whatever it held before.
-/
import proofs.«900629_g7700000000000630_dist_a2a_v7x_xyz2x2x2_z_m256_n256_f32_1_alg».proof.Proof.KernelProto

noncomputable section

namespace Cert.Kernel.A2A

open Cert.Kernel Cert.Kernel.Gen

open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The argument array after the run holds what it held: an input window's array is never written back. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array after the run holds the result staging buffer's final contents: the grid has one point, that
    point writes the output window's block back, and the block is the whole array (its offsets are zero on every axis
    and its sizes the array's), so the write replaces the array's contents by what was staged. -/
theorem finalA_out (c : Dev nD) : finalA m ρ c (1 : Fin 2) = outAt m ρ c := by
  unfold finalA
  rw [show cfg0.N = t0_0.val + 1 from N_0, Dat.arrAt_succ, if_pos (flush0_1 t0_0)]
  exact Memref.write_access_unit_zero_univ (Elt F) main_v1 (funext fun a => Nat.zero_mul _) _ _ _

/-- info: 'Cert.Kernel.A2A.finalA_x' depends on axioms: [propext, Classical.choice, Quot.sound] -/
#guard_msgs in #print axioms finalA_x
/-- info: 'Cert.Kernel.A2A.finalA_out' depends on axioms: [propext, Classical.choice, Quot.sound] -/
#guard_msgs in #print axioms finalA_out

end Cert.Kernel.A2A

end
-- ==== Proof.KernelIdealProto.lean ====
/-
  The cross-device protocol of the pairwise exchange, and the data every thread's proof is stated over.

  The eight devices form four pairs: a device and its PEER differ in the last mesh coordinate only. A device
  holds a 256 × 512 block of rows; it keeps the square of columns its own coordinate names in the rows of its
  result that coordinate names, and sends the other square of columns into the peer's result, into the rows its
  OWN coordinate names. Three semaphores a device: the entry handshake (one unit from the peer, saying the
  peer is inside the kernel and handing over the half of the peer's result buffer the transfer will fill), the
  send side of the transfer (the source square comes back), the receive side (the landed half of the result).
-/
import proofs.«900629_g7700000000000630_dist_a2a_v7x_xyz2x2x2_z_m256_n256_f32_1_alg».proof.Proof.Gen.KernelIdeal
import proofs.«900629_g7700000000000630_dist_a2a_v7x_xyz2x2x2_z_m256_n256_f32_1_alg».proof.Proof.Gen.KernelIdeal.Skeleton
import proofs.«900629_g7700000000000630_dist_a2a_v7x_xyz2x2x2_z_m256_n256_f32_1_alg».proof.Proof.Gen.KernelIdeal.Launch
import proofs.«900629_g7700000000000630_dist_a2a_v7x_xyz2x2x2_z_m256_n256_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The pairs -/

/-- The device with the last mesh coordinate flipped. -/
def peer (c : Dev nD) : Dev nD :=
  ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide
theorem peer_par (c : Dev nD) : (peer c).val % 2 = 1 - c.val % 2 := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs and cells -/

abbrev xM : Memref sig .tc .vmem S256x512 .f32 := Memref.whole cc0_stg0_0
abbrev oM : Memref sig .tc .vmem S512x256 .f32 := Memref.whole cc0_stg1_0

/-- The rows of the result a device fills itself, -/
abbrev ownR (c : Dev nD) : Rect S512x256 := Rect.unit (s := S512x256) (k0_off2 c) S256x256.size (k0_off2_inb c)
/-- the columns of its block it keeps, -/
abbrev keepR (c : Dev nD) : Rect S256x512 := Rect.unit (s := S256x512) (k0_off1 c) S256x256.size (k0_off1_inb c)
/-- the rows of the PEER's result device `c`'s transfer fills (the same rows of its own buffer, read on the peer), -/
abbrev dstM (c : Dev nD) : Memref sig .tc .vmem S256x256 .f32 :=
  oM.slice (Rect.unit (s := S512x256) (k0_off3 c) S256x256.size (k0_off3_inb c)) (fun _ => rfl)
/-- and the columns of its block it sends. -/
abbrev srcM (c : Dev nD) : Memref sig .tc .vmem S256x256 .f32 :=
  xM.slice (Rect.unit (s := S256x512) (k0_off4 c) S256x256.size (k0_off4_inb c)) (fun _ => rfl)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the exchange's: handshake, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The transfer's credit: that of a 256 × 256 square of the result buffer. -/
def N : ℕ := (dstM (0 : Dev nD)).view.dmaCredit
theorem N_eq (c : Dev nD) : (dstM c).view.dmaCredit = N := rfl
theorem N_pos : 0 < N := View.dmaCredit_pos _ (by decide)

/-! ## Contents -/

/-- Device `c`'s block of rows, as its input staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The square of columns device `c` keeps (what its one store writes), -/
def kept (c : Dev nD) : S256x256.Idx → Elt F .f32 :=
  k0_pay1 ((xM : Memref sig .tc .vmem S256x512 .f32).view.readAt (Elt F) (keepR c).toLoadRect (xstg m ρ c))
/-- and the square it sends (what its transfer reads). -/
def sent (c : Dev nD) : S256x256.Idx → Elt F .f32 :=
  (srcM c).view.read (Elt F) (xstg m ρ c)

/-- The result buffer of device `c` at the end: its own square in the rows it fills itself, the peer's sent
    square in the other rows (the two halves cover the buffer, so the base contents are never seen). -/
def outAt (c : Dev nD) : (cc0_stg1_0 : Ref sig .tc).ty.Contents (Elt F) :=
  (dstM (peer c)).view.write (Elt F)
    (((oM : Memref sig .tc .vmem S512x256 .f32).access (ownR c)).write (Elt F) (fun _ => Classical.arbitrary _) (kept m ρ c) Finset.univ)
    (sent m ρ (peer c)) Finset.univ

/-- The two halves of a result buffer. -/
abbrev ownSet (c : Dev nD) : Finset (cc0_stg1_0 : Ref sig .tc).ty.Idx := ((oM : Memref sig .tc .vmem S512x256 .f32).access (ownR c)).set
abbrev dstSet (c : Dev nD) : Finset (cc0_stg1_0 : Ref sig .tc).ty.Idx := (dstM c).view.set
abbrev srcSet (c : Dev nD) : Finset (cc0_stg0_0 : Ref sig .tc).ty.Idx := (srcM c).view.set

theorem mem_ownSet (c : Dev nD) (i : (cc0_stg1_0 : Ref sig .tc).ty.Idx) :
    i ∈ ownSet c ↔ (256 * (c.val % 2) ≤ (i 0).val ∧ (i 0).val < 256 * (c.val % 2) + 256) := by
  unfold ownSet
  rw [show ((oM : Memref sig .tc .vmem S512x256 .f32).access (ownR c)).set = (ownR c).set from View.set_slice_whole _ _, Rect.mem_set_unit, k0_off2_eq]
  have h1 : (i 1).val < 256 := (i 1).isLt
  constructor
  · intro h; exact h 0
  · intro h a; fin_cases a
    · exact h
    · exact ⟨Nat.zero_le _, by show (i 1).val < 0 + 256; omega⟩

theorem mem_dstSet (c : Dev nD) (i : (cc0_stg1_0 : Ref sig .tc).ty.Idx) :
    i ∈ dstSet c ↔ (256 * (c.val % 2) ≤ (i 0).val ∧ (i 0).val < 256 * (c.val % 2) + 256) := by
  unfold dstSet
  rw [show (dstM c).view.set = (Rect.unit (s := S512x256) (k0_off3 c) S256x256.size (k0_off3_inb c)).set from View.set_slice_whole _ _, Rect.mem_set_unit, k0_off3_eq]
  have h1 : (i 1).val < 256 := (i 1).isLt
  constructor
  · intro h; exact h 0
  · intro h a; fin_cases a
    · exact h
    · exact ⟨Nat.zero_le _, by show (i 1).val < 0 + 256; omega⟩

/-- The rows a device does not fill itself are the rows its peer's transfer fills. -/
theorem halves (c : Dev nD) : Finset.univ \ ownSet c = dstSet (peer c) := by
  ext i
  rw [Finset.mem_sdiff, mem_ownSet, mem_dstSet, peer_par]
  have h0 : (i 0).val < 512 := (i 0).isLt
  have hc : c.val % 2 < 2 := Nat.mod_lt _ (by decide)
  constructor
  · rintro ⟨-, h⟩; omega
  · intro h; exact ⟨Finset.mem_univ _, by omega⟩

theorem ownSet_disj (c : Dev nD) : ∀ i ∈ ownSet c, i ∉ dstSet (peer c) := fun i hi h => by
  rw [← halves] at h; exact (Finset.mem_sdiff.mp h).2 hi

/-- On the rows it fills itself a device's result is what its store wrote, whatever was there; -/
theorem outAt_own (c : Dev nD) (f : (cc0_stg1_0 : Ref sig .tc).ty.Contents (Elt F)) :
    ∀ i ∈ ownSet c, ((oM : Memref sig .tc .vmem S512x256 .f32).access (ownR c)).write (Elt F) f (kept m ρ c) Finset.univ i = outAt m ρ c i := by
  intro i hi
  have hn : i ∉ (dstM (peer c)).view.setOn Finset.univ := by rw [View.setOn_univ]; exact ownSet_disj c i hi
  obtain ⟨y, hy⟩ := View.exists_emb_of_mem_set ((oM : Memref sig .tc .vmem S512x256 .f32).access (ownR c)) hi
  subst hy
  unfold outAt
  rw [View.write_of_not_mem _ _ _ hn, View.write_emb_of_mem _ _ (Finset.mem_univ y), View.write_emb_of_mem _ _ (Finset.mem_univ y)]

/-- on the rows device `p`'s transfer fills, the PEER's result is what the transfer wrote, whatever was there. -/
theorem outAt_dst (p : Dev nD) (fd : (cc0_stg1_0 : Ref sig .tc).ty.Contents (Elt F)) :
    ∀ i ∈ dstSet p, (dstM p).view.write (Elt F) fd (sent m ρ p) Finset.univ i = outAt m ρ (peer p) i := by
  intro i hi
  obtain ⟨y, hy⟩ := View.exists_emb_of_mem_set (dstM p).view hi
  subst hy
  unfold outAt
  rw [peer_peer, View.write_emb_of_mem _ _ (Finset.mem_univ y), View.write_emb_of_mem _ _ (Finset.mem_univ y)]

/-! ## Points-to assertions -/

/-- The rows of device `p`'s result buffer that device `s`'s transfer fills, held whole at contents `f`. -/
def dstPts (s p : Dev nD) (f : Buf (Elt F) ((dstM s).view.loc (p : Thread nD τ))) : sProp 𝕄 :=
  (dstM s).view.loc (p : Thread nD τ) ↦[(dstM s).view.set]{fullShare} f
/-- The square of its block device `c` sends. -/
def srcPts (c : Dev nD) : sProp 𝕄 :=
  (srcM c).view.loc (c : Thread nD τ) ↦[(srcM c).view.set]{fullShare} xstg m ρ c

instance dstPts_storable (s p : Dev nD) (f) : BI.Storable (upEmb : UEmb _ 𝕄) (dstPts (F := F) s p f) := by unfold dstPts; infer_instance
instance srcPts_storable (c : Dev nD) : BI.Storable (upEmb : UEmb _ 𝕄) (srcPts (F := F) m ρ c) := by unfold srcPts; infer_instance

/-! ## The schedule -/

/-- What the peer's signal hands device `c`: the rows of the peer's result buffer that `c`'s transfer fills, and
    that the peer has reached round 0 of its receive cell. -/
def barPay (c : Dev nD) : sProp 𝕄 := iprop((∃ f, dstPts c (peer c) f) ∗ reached ER (recvCell (peer c)) 0)
/-- What the landing hands device `c`: the rows the peer's transfer filled, at the final contents. -/
def recvPay (c : Dev nD) : sProp 𝕄 := dstPts (peer c) c (outAt m ρ c)
/-- What the departure hands back: the sent square. -/
def sendPay (c : Dev nD) : sProp 𝕄 := srcPts m ρ c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: the handshake cell one unit from the peer, the send and receive cells the
    square's credit. -/
def exRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (exRd (F := F) m ρ).duties (barCell c) 0 = {()} := by dsimp only [exRd]; exact if_pos ⟨rfl, .inl ⟨rfl, rfl⟩⟩
theorem duties_send : (exRd (F := F) m ρ).duties (sendCell c) 0 = {()} := by dsimp only [exRd]; exact if_pos ⟨rfl, .inr ⟨rfl, .inl rfl⟩⟩
theorem duties_recv : (exRd (F := F) m ρ).duties (recvCell c) 0 = {()} := by dsimp only [exRd]; exact if_pos ⟨rfl, .inr ⟨rfl, .inr rfl⟩⟩
theorem duties_later (g : GSem nD τ sig) : ∀ r, 1 ≤ r → (exRd (F := F) m ρ).duties g r = ∅ :=
  fun r hr => by dsimp only [exRd]; rw [if_neg fun h => by omega]

theorem amount_bar (d : Unit) : (exRd (F := F) m ρ).amount (barCell c) 0 d = 1 := by dsimp only [exRd]; exact if_pos rfl
theorem amount_send (d : Unit) : (exRd (F := F) m ρ).amount (sendCell c) 0 d = N := by dsimp only [exRd]; exact if_neg send_ne_bar
theorem amount_recv (d : Unit) : (exRd (F := F) m ρ).amount (recvCell c) 0 d = N := by dsimp only [exRd]; exact if_neg recv_ne_bar

theorem expect_bar : (exRd (F := F) m ρ).expect (barCell c) 0 = 1 := by
  unfold Schedule.expect Schedule.amountOf; rw [duties_bar, Finset.sum_singleton, amount_bar]
theorem expect_send : (exRd (F := F) m ρ).expect (sendCell c) 0 = N := by
  unfold Schedule.expect Schedule.amountOf; rw [duties_send, Finset.sum_singleton, amount_send]
theorem expect_recv : (exRd (F := F) m ρ).expect (recvCell c) 0 = N := by
  unfold Schedule.expect Schedule.amountOf; rw [duties_recv, Finset.sum_singleton, amount_recv]

theorem payload_bar (d : Unit) : (exRd (F := F) m ρ).payload (barCell c) 0 d = barPay c := by dsimp only [exRd]; rw [if_pos rfl]
theorem payload_send (d : Unit) : (exRd (F := F) m ρ).payload (sendCell c) 0 d = sendPay m ρ c := by
  dsimp only [exRd]; rw [if_neg send_ne_bar, if_neg send_ne_recv, if_pos rfl]
theorem payload_recv (d : Unit) : (exRd (F := F) m ρ).payload (recvCell c) 0 d = recvPay m ρ c := by
  dsimp only [exRd]; rw [if_neg recv_ne_bar, if_pos rfl]

theorem rest_bar : bigSep ((exRd (F := F) m ρ).duties (barCell c) 0 \ ∅) (fun d => (exRd (F := F) m ρ).payload (barCell c) 0 d) = barPay c := by
  rw [Finset.sdiff_empty, duties_bar, bigSep_singleton, payload_bar]
theorem rest_send : bigSep ((exRd (F := F) m ρ).duties (sendCell c) 0 \ ∅) (fun d => (exRd (F := F) m ρ).payload (sendCell c) 0 d) = sendPay m ρ c := by
  rw [Finset.sdiff_empty, duties_send, bigSep_singleton, payload_send]
theorem rest_recv : bigSep ((exRd (F := F) m ρ).duties (recvCell c) 0 \ ∅) (fun d => (exRd (F := F) m ρ).payload (recvCell c) 0 d) = recvPay m ρ c := by
  rw [Finset.sdiff_empty, duties_recv, bigSep_singleton, payload_recv]

end Sched

/-! ## What each device owes at launch; the levels -/

/-- Device `c` owes the peer's receive cell the square's credit and the peer's handshake cell one unit (the signal
    comes first, so its summand is last). -/
def O₀ (c : Dev nD) : CellTallies nD τ sig Unit := tallyAt (recvCell (peer c)) () N + tallyAt (barCell (peer c)) () 1

def L (g : GSem nD τ sig) : Finset Unit := if g.1.2 = .tc then {()} else ∅
/-- Handshake cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its handshake wait a device owes the peer's receive credit only: a receive cell, above its handshake cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

/-- The cells' invariants device `c`'s thread opens, under the names `K` the launch allocated them at: its own three,
    the peer's handshake cell (its signal) and the peer's receive cell (its transfer). -/
def invs (K : Dev nD × Fin 3 → ℕ) (c : Dev nD) : sProp 𝕄 :=
  iprop(cellInv ER (exRd m ρ) (K (c, 0)) (barCell c) ∗ cellInv ER (exRd m ρ) (K (c, 1)) (sendCell c) ∗ cellInv ER (exRd m ρ) (K (c, 2)) (recvCell c)
    ∗ cellInv ER (exRd m ρ) (K (peer c, 0)) (barCell (peer c)) ∗ cellInv ER (exRd m ρ) (K (peer c, 2)) (recvCell (peer c)))

instance invs_persistent (K : Dev nD × Fin 3 → ℕ) (c : Dev nD) : BI.Persistent (invs m ρ K c) := by unfold invs; infer_instance

/-- The ghost state device `c` starts from: the invariants; its positions at round 0 of its three cells; the
    reached-marks of the cells it pays and of its own send and receive cells; the three duty tokens it pays with —
    the peer's handshake duty, the peer's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its handshake's unit, its
    receive cell's credit) and the level facts. -/
def start (c : Dev nD) : sProp 𝕄 :=
  iprop((∃ K, ghost m ρ K c) ∗ cred (tallyAt (barCell c) () 1) ∗ cred (tallyAt (recvCell c) () N) ∗ levAts L lv)

/-- Before the one grid point (the kernel has no scratch buffer: nothing else); -/
def Φ₀ (c : Dev nD) : sProp 𝕄 := start m ρ c
/-- after it: the two own cells at zero, closed. -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := fetch0_0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands device `c`'s thread at the one grid point, -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and what it must hand back: the own cells closed, nothing owed, the block unchanged, the result buffer at
    its final contents. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- The final arrays of device `c`, as the pipeline's proof data name them. -/
def finalA (c : Dev nD) (w : Fin cfg0.W) : Buf (Elt F) ((cfg0.win w).arr.view.loc (c : Thread nD τ)) := (dats m ρ 0 c).arrAt w cfg0.N

/-- The run's post: every device's arrays at the named contents. -/
def QC : PUnit × MemSt nD τ sig (Elt F) → Prop := fun r =>
  ∀ c : Dev nD, ∀ w : Fin cfg0.W, r.2.mem ((cfg0.win w).arr.view.loc (c : Thread nD τ)) = finalA m ρ c w

end Cert.KernelIdeal.A2A

end
-- ==== Proof.KernelIdealBody.lean ====
/-
  One thread's body, run from the exchange's invariant at a symbolic device.
-/
import proofs.«900629_g7700000000000630_dist_a2a_v7x_xyz2x2x2_z_m256_n256_f32_1_alg».proof.Proof.KernelIdealProto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the buffers along the transfer's squares, and putting them back -/

abbrev locX (c : Dev nD) : Loc nD τ sig := (c : Thread nD τ).loc cc0_stg0_0
abbrev locO (c : Dev nD) : Loc nD τ sig := (c : Thread nD τ).loc cc0_stg1_0

/-- The result buffer, whole, is the rows its device fills and the rows the peer's transfer fills. -/
theorem out_cut (c : Dev nD) (g : Buf (Elt F) (locO c)) :
    (locO c ↦{fullShare} g : sProp 𝕄) ⊣⊢ iprop((locO c ↦[ownSet c]{fullShare} g) ∗ dstPts (peer c) c g) := by
  have h := pointsTo_split_subset (nD := nD) (τ := τ) (sig := sig) (Ix := Unit) (Val := Elt F) (Name := ℕ) (U := UU) (Lvl := ℕ)
    (ℓ := locO c) (q := fullShare) (f := g) (Finset.subset_univ (ownSet c))
  rw [halves c] at h
  exact h

/-- The block's buffer, whole, is the square that is sent and the rest. -/
theorem x_cut (c : Dev nD) :
    (locX c ↦{fullShare} xstg m ρ c : sProp 𝕄) ⊣⊢ iprop(srcPts m ρ c ∗ (locX c ↦[Finset.univ \ srcSet c]{fullShare} xstg m ρ c)) := by
  unfold srcPts
  exact pointsTo_split_subset (Finset.subset_univ (srcSet c))

/-- A load through the rows a device fills itself touches those rows only. -/
theorem own_load_subset (c : Dev nD) : (oM : Memref sig .tc .vmem S512x256 .f32).view.setOn (ownR c).toLoadRect.set ⊆ ownSet c := by
  unfold ownSet
  rw [show ((oM : Memref sig .tc .vmem S512x256 .f32).access (ownR c)).set = (ownR c).set.map (oM : Memref sig .tc .vmem S512x256 .f32).view.emb from View.set_slice _ _]
  exact subset_rfl

/-- What the one store leaves in the rows a device fills itself is the final contents there. -/
theorem own_final (c : Dev nD) (g : Buf (Elt F) (locO c)) :
    (((oM : Memref sig .tc .vmem S512x256 .f32).access (ownR c)).loc (c : Thread nD τ) ↦[ownSet c]{fullShare}
        ((oM : Memref sig .tc .vmem S512x256 .f32).access (ownR c)).write (Elt F) g
          (k0_pay1 ((xM : Memref sig .tc .vmem S256x512 .f32).view.readAt (Elt F) (keepR c).toLoadRect (xstg m ρ c))) Finset.univ : sProp 𝕄)
      ⊢ (locO c ↦[ownSet c]{fullShare} outAt m ρ c) :=
  Entails.of_eq (pointsTo_congr (outAt_own m ρ c g))

/-! ## The transfer's rule at the exchange's cells -/

section Body

variable (K : Dev nD × Fin 3 → ℕ)

/-- The addressed transfer of device `c` into its peer `n` (substituted, not rewritten): the sent square lent, the
    peer's rows handed in at any contents and handed on, through the receive cell, at the final ones. -/
theorem wp_send_ex (c n : Dev nD) (hn : n = peer c) {hsc : (dstM c : Memref sig (Dev.tc n : Thread nD τ).2.kind .vmem S256x256 .f32).view.ref.isScScratch = false}
    {hsrc : (srcM c).view.WordExact} {hdst : (dstM c).view.WordExact}
    {hsem : DmaTarget.Typed .vmem (.dma recvS.sem) (.remote (Dev.tc n : Thread nD τ) (dstM c) (.dma sendS.sem) hsc)}
    {α : Type} {Q : α → sProp 𝕄} {k : PUnit → Prog (TpuEff nD τ sig (Elt F) Λ₀ .tc) α}
    (fn : Buf (Elt F) ((dstM c).view.loc (peer c : Thread nD τ))) (W : Waits sig Unit) :
    iprop(cellInv ER (exRd m ρ) (K (c, 1)) (sendCell c) ∗ cellInv ER (exRd m ρ) (K (peer c, 2)) (recvCell (peer c))
        ∗ srcPts m ρ c ∗ dstPts c (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) (dstM c) (.dma sendS.sem) hsc) (.dma recvS.sem) hsrc hdst hsem) k) Q) := by
  subst hn
  unfold srcPts dstPts
  exact Rounds.wp_send_pointsTo 𝒱₀ ER (exRd m ρ) (c : Thread nD τ) none (κ₁ := K (c, 1)) (κ₂ := K (peer c, 2))
    (r₁ := 0) (r₂ := 0) (d₁ := ()) (d₂ := ()) (fd := fn) (src := srcM c) (dst := dstM c) (q := fullShare) (fs := xstg m ρ c) (c' := (peer c : Thread nD τ))
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay dstPts; rw [peer_peer]; exact Entails.of_eq (pointsTo_congr (outAt_dst m ρ c fn)))

def bodyPre (c : Dev nD) : sProp 𝕄 :=
  iprop((ghost m ρ K c ∗ cred (tallyAt (barCell c) () 1) ∗ cred (tallyAt (recvCell c) () N) ∗ levAts L lv)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxHeartbeats 1600000 in
/-- The body on device `c`, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  simp only [dev1_eq c, dev2_eq c]
  -- the result buffer in its two halves
  ihave Hout2 := ((out_cut c g1).1) $$ Hout
  icases Hout2 with ⟨Hown, Hdst⟩
  -- the SIGNAL to the peer's handshake cell: the rows the peer's transfer will fill go with it
  unfold O₀
  iapply (Rounds.wp_signal 𝒱₀ ER (exRd m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP Hdst]
  · isplitr; · iexact HIbarP
    isplitl [HO]; · iexact HO
    isplitl [HtBP]; · iexact HtBP
    isplitl [Hdst]
    · rw [payload_bar]; unfold barPay; rw [peer_peer]
      isplitl [Hdst]; · iexists g1; iexact Hdst
      iexact HrV
    · iexact HrBP
  iintro HO
  -- the kept square is read, the own rows read and overwritten
  iapply (wp_load 𝒱₀ (c : Thread nD τ) none Set.univ (m := xM) (Finset.subset_univ _)) $$ Hx; iintro Hx
  iapply (wp_load 𝒱₀ (c : Thread nD τ) none Set.univ (m := oM) (S := ownSet c) (own_load_subset c)) $$ Hown; iintro Hown
  iapply (wp_store 𝒱₀ (c : Thread nD τ) none Set.univ (m := oM) (r := ownR c) (Mk := Finset.univ) (S := ownSet c) (by rw [View.setOn_univ])) $$ Hown; iintro Hown
  -- what the store left in the own rows is the final contents there
  ihave Hown := (own_final m ρ c g1) $$ Hown
  -- the WAIT for the peer's unit on the own handshake cell, owing the peer's receive credit: the rows of the peer's
  -- result buffer that this device's transfer fills come with it
  iapply (Rounds.wp_wait_rest_token 𝒱₀ ER (exRd m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HdstP⟩, #HrVP'⟩
  -- the TRANSFER to the peer: the sent square cut out of the block
  ihave Hx2 := ((x_cut m ρ c).1) $$ Hx
  icases Hx2 with ⟨Hsrc, Hxrest⟩
  iapply (wp_send_ex m ρ K c _ (dev2_eq c) fn (insert (SemLoc.reg barS, ()) W)) $$ [Hsrc HdstP HO HtS HtVP]
  · isplitr; · iexact HIsnd
    isplitr; · iexact HIrcvP
    isplitl [Hsrc]; · iexact Hsrc
    isplitl [HdstP]; · iexact HdstP
    isplitl [HO]; · iexact HO
    isplitl [HtS]; · iexact HtS
    isplitr; · iexact HrS
    isplitl [HtVP]; · iexact HtVP
    iexact HrVP
  iintro ⟨HcS, HO⟩
  -- the wait on the SEND cell: the sent square back
  iapply (Rounds.wp_wait_rest_token 𝒱₀ ER (exRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c)) $$ Hpay
  -- the wait on the RECEIVE cell: the rows the peer's transfer filled, at the final contents
  iapply (Rounds.wp_wait_rest_token 𝒱₀ ER (exRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv]; rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq (rest_recv m ρ c)) $$ Hpay
  unfold sendPay recvPay
  -- the two own cells close: their counters at zero are the device's again
  imod (Rounds.cell_close ER (exRd m ρ) (Set.mem_univ (K (c, 1))) (fun h => h) (R := 0 + 1) (duties_later m ρ (sendCell c))) $$ [HatS] with HzS
  · isplitr; · iexact HIsnd
    iexact HatS
  imod (Rounds.cell_close ER (exRd m ρ) (Set.mem_univ (K (c, 2))) (fun h => h) (R := 0 + 1) (duties_later m ρ (recvCell c))) $$ [HatV] with HzV
  · isplitr; · iexact HIrcv
    iexact HatV
  -- the buffers put back together
  ihave Hx := ((x_cut m ρ c).2) $$ [Hsrc Hxrest]
  · isplitl [Hsrc] <;> iassumption
  ihave Hout := ((out_cut c (outAt m ρ c)).2) $$ [Hown Hland]
  · isplitl [Hown] <;> iassumption
  rw [wp_ret]; imodintro
  iapply Hk
  unfold bodyPost Φ₁ Dat.owesAt Pipeline.owesWithin
  rw [show (dats m ρ 0 c).owed t0_0.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`: the one grid point, the windows opened, the names of the cells
    taken out of the starting assertion, then `sound_body`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m ρ c)
  unfold bodyPre' Φ₀ start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      icases Hrest with ⟨H1, H2, H3⟩
      isplitl [H1]; · iexact H1
      isplitl [H2]; · iexact H2
      iexact H3
    isplitl [Ho]; · iexact Ho
    isplitl [Hx] <;> iassumption
  · iintro H; iexact H

end Body

/-- info: 'Cert.KernelIdeal.A2A.body_obligation' depends on axioms: [propext, Classical.choice, Quot.sound] -/
#guard_msgs in #print axioms body_obligation

end Cert.KernelIdeal.A2A

end
-- ==== Proof.KernelIdealLaunch.lean ====
/-
  From one thread's body to the run of @main on the eight devices.

  The exchange's ghost state is minted once for the whole mesh: three cells a device (handshake, send, receive), each
  with one duty at round 0, so three tokens a device. A device pays with its PEER's handshake and receive tokens and
  with its own send token; the peer map being an involution of the devices, dealing the tokens across each pair is a
  reindexing of a product over all devices. The handshake semaphore is the one unscoped semaphore of the launch, so
  its counter at zero arrives beside the kernel's own two at the step made for all devices at once; there every
  cell's invariant is allocated, and each device is handed the five it opens. What a cell is owed at launch is a sum
  over the devices with one nonzero summand, the peer's.
-/
import proofs.«900629_g7700000000000630_dist_a2a_v7x_xyz2x2x2_z_m256_n256_f32_1_alg».proof.Proof.KernelIdealBody

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: three a device. -/
def exCells : Finset (GSem nD τ sig) := Finset.univ.map ⟨kcell, kcell_injective⟩

/-- A cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, positions and reached-marks, and their tokens. -/
def G (c : Dev nD) : sProp 𝕄 :=
  iprop((bigSep Finset.univ fun k : Fin 3 => roundState ER (exRd m ρ) (kcell (c, k)) 0)
    ∗ (bigSep Finset.univ fun k : Fin 3 => iprop(atPos ER (kcell (c, k)) 0 ∅ 0 ∗ reached ER (kcell (c, k)) 0)) ∗ toks c)

/-- What the step for all devices makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the handshake semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device's three counters at zero and its three round states become its three cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and every cell's round 0 reached: persistent, so every device may read them. -/
def records (K : Dev nD × Fin 3 → ℕ) : sProp 𝕄 :=
  iprop((bigSep Finset.univ fun ck : Dev nD × Fin 3 => cellInv ER (exRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (exRd m ρ) (K ck) (kcell ck) : sProp 𝕄)) ⊢ cellInv ER (exRd m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt across each pair: a device's handshake and receive tokens go to its peer, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (exRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The step for all devices at once: own AND unscoped semaphores of every device. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s handshake cell: a unit if it is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

/-- What it owes `c`'s receive cell: the square's credit if it is `c`'s peer. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

/-- A device's launch credit: its handshake's unit and its receive cell's credit, both owed by its peer. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- No scoped buffer beside the staging buffers: the body starts from the launch's state as it is, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

/-- and hands back its own two counters at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled mesh of eight devices, for any float values, from any memory with zero counters: every weakly fair
    execution of @main — the four pairs shaking hands on the runtime's barrier semaphore, then exchanging their
    squares — terminates, and every final state has each device's two arrays at the named contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.A2A.run_main' depends on axioms: [propext, Classical.choice, Quot.sound] -/
#guard_msgs in #print axioms run_main

end Cert.KernelIdeal.A2A

end
-- ==== Proof.KernelIdealFinal.lean ====
/-
  The arrays at the end of the one-point pipeline, as its proof data name them.

  The pipeline has one grid point. The argument array is an input window's: no write-back ever touches it, so it
  ends holding what it held at launch. The result array is an output window's, whose block is the whole array: the
  one grid point writes the staging buffer's final contents back over all of it, so it ends holding exactly those
  contents, whatever it held before.
-/
import proofs.«900629_g7700000000000630_dist_a2a_v7x_xyz2x2x2_z_m256_n256_f32_1_alg».proof.Proof.KernelIdealProto

noncomputable section

namespace Cert.KernelIdeal.A2A

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The argument array after the run holds what it held: an input window's array is never written back. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array after the run holds the result staging buffer's final contents: the grid has one point, that
    point writes the output window's block back, and the block is the whole array (its offsets are zero on every axis
    and its sizes the array's), so the write replaces the array's contents by what was staged. -/
theorem finalA_out (c : Dev nD) : finalA m ρ c (1 : Fin 2) = outAt m ρ c := by
  unfold finalA
  rw [show cfg0.N = t0_0.val + 1 from N_0, Dat.arrAt_succ, if_pos (flush0_1 t0_0)]
  exact Memref.write_access_unit_zero_univ (Elt F) main_v1 (funext fun a => Nat.zero_mul _) _ _ _

/-- info: 'Cert.KernelIdeal.A2A.finalA_x' depends on axioms: [propext, Classical.choice, Quot.sound] -/
#guard_msgs in #print axioms finalA_x
/-- info: 'Cert.KernelIdeal.A2A.finalA_out' depends on axioms: [propext, Classical.choice, Quot.sound] -/
#guard_msgs in #print axioms finalA_out

end Cert.KernelIdeal.A2A

end
-- ==== Proof.KernelIdealBlock.lean ====
/-
  The block equation of the pairwise exchange: when every device's argument buffer holds its block of rows
  of a 512 × 512 array, the result buffer a device ends with (its own kept square in the rows its mesh
  coordinate names, the peer's sent square in the other rows) is its block of COLUMNS of the same array.
  Pure index mathematics: where an element of a row block sits in the whole array, and where the two
  squares of a result buffer come from.
-/
import proofs.«900629_g7700000000000630_dist_a2a_v7x_xyz2x2x2_z_m256_n256_f32_1_alg».proof.Proof.KernelIdealProto
import Idealize.ShloMosaic.Lib.Layout

noncomputable section

namespace Cert.KernelIdeal.A2A

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

/-- The last mesh coordinate of a device of the 2 × 2 × 2 mesh, as the one axis a dimension is cut along. -/
theorem meshLin_last (n : ℕ) : Layout.meshLin [2, 2, 2] n [2] = n % 2 := by
  simp [Layout.meshLin, Layout.meshCoord, Layout.cutSize]

/-- The input staging buffer holds the device's argument array as launched. -/
theorem xstg_eq (c : Dev nD) : xstg m ρ c = m ((c : Thread nD τ).loc main_arg0) := by
  unfold xstg
  exact Memref.read_access_unit_zero (Elt F) main_arg0 (funext fun a => by fin_cases a <;> rfl) _ _

/-! ## The offsets of the four rectangles, by coordinate -/

theorem off1_0 (c : Dev nD) : k0_off1 c 0 = 0 := by rw [k0_off1_eq]; rfl
theorem off1_1 (c : Dev nD) : k0_off1 c 1 = 256 * (c.val % 2) := by rw [k0_off1_eq]; rfl
theorem off2_0 (c : Dev nD) : k0_off2 c 0 = 256 * (c.val % 2) := by rw [k0_off2_eq]; rfl
theorem off2_1 (c : Dev nD) : k0_off2 c 1 = 0 := by rw [k0_off2_eq]; rfl
theorem off3_0 (c : Dev nD) : k0_off3 c 0 = 256 * (c.val % 2) := by rw [k0_off3_eq]; rfl
theorem off3_1 (c : Dev nD) : k0_off3 c 1 = 0 := by rw [k0_off3_eq]; rfl
theorem off4_0 (c : Dev nD) : k0_off4 c 0 = 0 := by rw [k0_off4_eq]; rfl
theorem off4_1 (c : Dev nD) : k0_off4 c 1 = 256 - 256 * (c.val % 2) := by rw [k0_off4_eq]; rfl

/-! ## A row block read at an index -/

/-- Element `(r, j)` of device `c`'s block of rows is element `(256 (c mod 2) + r, j)` of the whole array. -/
theorem xstg_at (X : (⟨2, ![512, 512]⟩ : Shape).Idx → Elt F .f32)
    (hx : ∀ c : Dev nD, m ((c : Thread nD τ).loc main_arg0) = Layout.blockN ⟨2, ![256, 512]⟩ ⟨2, ![512, 512]⟩ (Layout.meshBlock [2, 2, 2] ![[2], []] c) X)
    (c : Dev nD) (z : (cc0_stg0_0 : Ref sig .tc).ty.Idx) (w : (⟨2, ![512, 512]⟩ : Shape).Idx)
    (h0 : (w 0).val = 256 * (c.val % 2) + (z 0).val) (h1 : (w 1).val = (z 1).val) :
    xstg m ρ c z = X w := by
  rw [xstg_eq, hx c]
  refine congrArg X (Shape.idx_ext₂ ?_ ?_)
  · show Layout.meshLin [2, 2, 2] c.val [2] * 256 + (z 0).val = (w 0).val
    rw [meshLin_last, h0, Nat.mul_comm]
  · show 0 * 512 + (z 1).val = (w 1).val
    rw [h1, Nat.zero_mul, Nat.zero_add]

/-! ## The two squares of a result buffer -/

/-- The square a device keeps, at an index: its block's element in the same row, in the columns its own
    mesh coordinate names. -/
theorem kept_at (c : Dev nD) (y : S256x256.Idx) :
    kept m ρ c y = xstg m ρ c ((keepR c).toLoadRect.idx y) := by
  unfold kept k0_pay1
  rw [shapeCast_self]; rfl

/-- The square a device sends, at an index: its block's element in the same row, in the other columns. -/
theorem sent_at (c : Dev nD) (y : S256x256.Idx) :
    sent m ρ c y = xstg m ρ c ((srcM c).view.emb y) := rfl

/-- The result buffer at an index is the whole array's element in the same row, in the device's block of columns. -/
theorem outAt_block_at (X : (⟨2, ![512, 512]⟩ : Shape).Idx → Elt F .f32)
    (hx : ∀ c : Dev nD, m ((c : Thread nD τ).loc main_arg0) = Layout.blockN ⟨2, ![256, 512]⟩ ⟨2, ![512, 512]⟩ (Layout.meshBlock [2, 2, 2] ![[2], []] c) X)
    (c : Dev nD) (i : (cc0_stg1_0 : Ref sig .tc).ty.Idx) (w : (⟨2, ![512, 512]⟩ : Shape).Idx)
    (h0 : (w 0).val = (i 0).val) (h1 : (w 1).val = 256 * (c.val % 2) + (i 1).val) :
    outAt m ρ c i = X w := by
  by_cases hr : 256 * (c.val % 2) ≤ (i 0).val ∧ (i 0).val < 256 * (c.val % 2) + 256
  · -- a row the device fills itself
    have hi : i ∈ ownSet c := (mem_ownSet c i).mpr hr
    obtain ⟨y, hy⟩ := View.exists_emb_of_mem_set ((oM : Memref sig .tc .vmem S512x256 .f32).access (ownR c)) hi
    have e0 : k0_off2 c 0 + 1 * (y 0).val = (i 0).val := congrArg (fun j : (cc0_stg1_0 : Ref sig .tc).ty.Idx => (j 0).val) hy
    have e1 : k0_off2 c 1 + 1 * (y 1).val = (i 1).val := congrArg (fun j : (cc0_stg1_0 : Ref sig .tc).ty.Idx => (j 1).val) hy
    rw [off2_0] at e0; rw [off2_1] at e1
    have hw := View.write_emb_of_mem (v := ((oM : Memref sig .tc .vmem S512x256 .f32).access (ownR c)))
      (fun _ => Classical.arbitrary _) (kept m ρ c) (Finset.mem_univ y)
    rw [hy] at hw
    rw [← outAt_own m ρ c (fun _ => Classical.arbitrary _) i hi, hw, cast_eq, kept_at]
    refine xstg_at m ρ X hx c _ w ?_ ?_
    · show (w 0).val = 256 * (c.val % 2) + (k0_off1 c 0 + 1 * (y 0).val)
      rw [off1_0]; omega
    · show (w 1).val = k0_off1 c 1 + 1 * (y 1).val
      rw [off1_1]; omega
  · -- a row the peer's transfer fills
    have hi : i ∈ dstSet (peer c) := by
      rw [← halves]; exact Finset.mem_sdiff.mpr ⟨Finset.mem_univ _, fun h => hr ((mem_ownSet c i).mp h)⟩
    have hp := (mem_dstSet (peer c) i).mp hi
    have hpar := peer_par c
    obtain ⟨y, hy⟩ := View.exists_emb_of_mem_set (dstM (peer c)).view hi
    have e0 : k0_off3 (peer c) 0 + 1 * (y 0).val = (i 0).val := congrArg (fun j : (cc0_stg1_0 : Ref sig .tc).ty.Idx => (j 0).val) hy
    have e1 : k0_off3 (peer c) 1 + 1 * (y 1).val = (i 1).val := congrArg (fun j : (cc0_stg1_0 : Ref sig .tc).ty.Idx => (j 1).val) hy
    rw [off3_0] at e0; rw [off3_1] at e1
    have hw := View.write_emb_of_mem (v := (dstM (peer c)).view)
      (((oM : Memref sig .tc .vmem S512x256 .f32).access (ownR c)).write (Elt F) (fun _ => Classical.arbitrary _) (kept m ρ c) Finset.univ)
      (sent m ρ (peer c)) (Finset.mem_univ y)
    rw [hy] at hw
    have ho := outAt_dst m ρ (peer c)
      (((oM : Memref sig .tc .vmem S512x256 .f32).access (ownR c)).write (Elt F) (fun _ => Classical.arbitrary _) (kept m ρ c) Finset.univ) i hi
    rw [peer_peer] at ho
    rw [← ho, hw, cast_eq, sent_at]
    refine xstg_at m ρ X hx (peer c) _ w ?_ ?_
    · show (w 0).val = 256 * ((peer c).val % 2) + (k0_off4 (peer c) 0 + 1 * (y 0).val)
      rw [off4_0]; omega
    · show (w 1).val = k0_off4 (peer c) 1 + 1 * (y 1).val
      rw [off4_1]; omega

/-- THE BLOCK EQUATION: from row blocks of a whole array, every device ends with its column block of it. -/
theorem outAt_block (X : (⟨2, ![512, 512]⟩ : Shape).Idx → Elt F .f32)
    (hx : ∀ c : Dev nD, m ((c : Thread nD τ).loc main_arg0) = Layout.blockN ⟨2, ![256, 512]⟩ ⟨2, ![512, 512]⟩ (Layout.meshBlock [2, 2, 2] ![[2], []] c) X) (c : Dev nD) :
    outAt m ρ c = Layout.blockN ⟨2, ![512, 256]⟩ ⟨2, ![512, 512]⟩ (Layout.meshBlock [2, 2, 2] ![[], [2]] c) X := by
  funext i
  rw [Layout.blockN_apply]
  refine outAt_block_at m ρ X hx c i _ ?_ ?_
  · show 0 * 512 + (i 0).val = (i 0).val
    rw [Nat.zero_mul, Nat.zero_add]
  · show Layout.meshLin [2, 2, 2] c.val [2] * 256 + (i 1).val = 256 * (c.val % 2) + (i 1).val
    rw [meshLin_last, Nat.mul_comm]

end Cert.KernelIdeal.A2A

end
-- ==== Proof.RefRun.lean ====
/-
  The run of the reference program.

  The reference's @main performs no operation and returns its argument: it is the empty straight line of host
  operations. Run from any memory with every semaphore counter at zero it terminates at once, and every buffer of its one
  device holds what it held at launch. Every buffer of that device is a buffer of its TensorCore (the signature has
  the one argument array and nothing else), so this is every location of the memory: in particular the result, which
  IS the argument array, ends at the argument's launch contents.
-/
import proofs.«900629_g7700000000000630_dist_a2a_v7x_xyz2x2x2_z_m256_n256_f32_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main is the empty straight line. -/
theorem main_eq (c : Dev nD) : main (F := F) c = seq ([] : List (HloOp τ sig (Elt F))) := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every buffer of a device is one of its TensorCore's. -/
theorem devRef_surj : ∀ b : DevRef τ sig, ∃ r : Ref sig .tc, Proc.devRef (τ := τ) .tc r = b := by decide

/-- From any memory with zero counters, for any float values: every weakly fair execution of @main terminates, and
    in every final state every location of the memory holds what it held at launch. -/
theorem run (m : (ℓ : Loc nD τ sig) → Buf (Elt F) ℓ) (g : Dev nD → PrngReg) :
    θ_run (defs (F := F)) (onTc (τ := τ) (main (F := F))) ⟨m, fun _ => 0, g⟩ (fun r => ∀ ℓ, r.2.mem ℓ = m ℓ) :=
  (θ_run defs _ _).mono (fun _ h ℓ => by
      obtain ⟨d, b⟩ := ℓ
      obtain ⟨r, rfl⟩ := devRef_surj b
      exact h d r)
    (run_seq scopedRefs_eq scopedSems_eq defs main (fun _ => []) main_eq (fun _ => trivial) m g)

/-- info: 'Cert.ReferenceIdeal.RefRun.run' depends on axioms: [propext, Classical.choice, Quot.sound] -/
#guard_msgs in #print axioms run

end Cert.ReferenceIdeal.RefRun

end
-- ==== Proof.lean ====
/-
  The proof of the claim: three frames, the (empty) idealization, and the algebraic claim.

  Each program's run is proved once with the strongest post needed. The exchange's run (at any float instance) ends
  with every device's argument array and result array at the contents the pipeline's proof data name; the argument
  array's are its launch contents, the result array's the final contents of the result staging buffer: the device's own
  kept square over the rows its coordinate names, the peer's sent square over the other rows. The reference performs no
  operation, so its result, which is its argument array, holds the argument's launch contents.

  The frames are those runs with the values dropped. For the algebraic claim the reference's result is the whole
  array X it was launched with; when every device's argument block is its row block of X, a device's final staging
  contents are its column block of X, which is what the claim asks of the result array.
-/
import proofs.«900629_g7700000000000630_dist_a2a_v7x_xyz2x2x2_z_m256_n256_f32_1_alg».proof.Defs
import proofs.«900629_g7700000000000630_dist_a2a_v7x_xyz2x2x2_z_m256_n256_f32_1_alg».proof.Proof.Gen.Kernel
import proofs.«900629_g7700000000000630_dist_a2a_v7x_xyz2x2x2_z_m256_n256_f32_1_alg».proof.Proof.Gen.KernelIdeal
import proofs.«900629_g7700000000000630_dist_a2a_v7x_xyz2x2x2_z_m256_n256_f32_1_alg».proof.Proof.Gen.ReferenceIdeal
import proofs.«900629_g7700000000000630_dist_a2a_v7x_xyz2x2x2_z_m256_n256_f32_1_alg».proof.Proof.Gen.Pre_finite_inputs_Kernel
import proofs.«900629_g7700000000000630_dist_a2a_v7x_xyz2x2x2_z_m256_n256_f32_1_alg».proof.Proof.Gen.Pre_finite_inputs_ReferenceIdeal
import proofs.«900629_g7700000000000630_dist_a2a_v7x_xyz2x2x2_z_m256_n256_f32_1_alg».proof.Proof.KernelLaunch
import proofs.«900629_g7700000000000630_dist_a2a_v7x_xyz2x2x2_z_m256_n256_f32_1_alg».proof.Proof.KernelFinal
import proofs.«900629_g7700000000000630_dist_a2a_v7x_xyz2x2x2_z_m256_n256_f32_1_alg».proof.Proof.KernelIdealLaunch
import proofs.«900629_g7700000000000630_dist_a2a_v7x_xyz2x2x2_z_m256_n256_f32_1_alg».proof.Proof.KernelIdealFinal
import proofs.«900629_g7700000000000630_dist_a2a_v7x_xyz2x2x2_z_m256_n256_f32_1_alg».proof.Proof.KernelIdealBlock
import proofs.«900629_g7700000000000630_dist_a2a_v7x_xyz2x2x2_z_m256_n256_f32_1_alg».proof.Proof.RefRun
import Idealize.ShloMosaic.Adequacy
import Idealize.ShloMosaic.Init

noncomputable section

namespace Cert.Proof

open Idealize.ShloMosaic Idealize.SL.Sem

/-- The word-level exchange runs, and every device's argument block ends unchanged: the run's post read at the
    argument window, whose array is never written back. -/
theorem frame_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)) :=
  (θ_run _ _ _).mono (fun _ h c => (h c 0).trans (Cert.Kernel.A2A.finalA_x m g c)) (Cert.Kernel.A2A.run_main m g)

/-- The idealized exchange runs; every device's result array ends at the final contents of its result staging buffer
    and its argument block unchanged. -/
theorem run_KernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KernelIdeal.A2A.outAt m g c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run _ _ _).mono (fun _ h c => ⟨(h c 1).trans (Cert.KernelIdeal.A2A.finalA_out m g c), (h c 0).trans (Cert.KernelIdeal.A2A.finalA_x m g c)⟩)
    (Cert.KernelIdeal.A2A.run_main m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level exchange's frame
  fun m g _ => frame_Kernel m g,
  -- the idealized exchange's frame: its run with the result's value dropped
  fun m g _ => (θ_run _ _ _).mono (fun _ h c => (h c).2) (run_KernelIdeal m g),
  -- the reference's frame: every location unchanged, the argument array among them
  fun m g _ => (θ_run _ _ _).mono (fun _ h c => h _) (Cert.ReferenceIdeal.RefRun.run m g),
  -- the idealization rewrote nothing
  trivial,
  -- the algebraic claim: the reference's result is the whole array it was launched with, and a device's final staging
  -- contents are its column block of that array when every argument block is its row block of it
  fun m g m' g' _ hblk =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (Cert.KernelIdeal.A2A.outAt_block m g _ hblk c), (h c).2⟩) (run_KernelIdeal m g),
      (θ_run _ _ _).mono (fun _ h => ⟨h _, h _⟩) (Cert.ReferenceIdeal.RefRun.run m' g')⟩⟩

end Cert.Proof

end
